-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x32 : Shape := ⟨2, ![4194304, 32]⟩
abbrev S32 : Shape := ⟨1, ![32]⟩
abbrev S_ : Shape := ⟨0, ![]⟩

class Facts : Prop where
  bcast_S_S4194304x32 : S_.BroadcastsInDim S4194304x32 (![] : Fin 0 → Fin S4194304x32.rank)
  reducesTo_S4194304x32_S_d0_1 : S4194304x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S4194304x32 .f32) (main_arg1 : FVec F S4194304x32 .f32) (main_arg2 : FVec F S32 .f32) : IVec S_ 1 :=
  let main_v0 : FVec F S4194304x32 .f32 := Host.absf main_arg0
  let main_cst : FVec F S_ .f32 := constant S_ .f32 0x7F800000#32
  let main_v1 : FVec F S4194304x32 .f32 := broadcastInDim S4194304x32 ![] bcast_S_S4194304x32 main_cst
  let main_v2 : IVec S4194304x32 1 := cmpf .olt main_v0 main_v1
  let main_c : IVec S_ 1 := constantI S_ 1 1#1
  let main_v3 : IVec S_ 1 := (fun x v => Host.reduce IntOp.andi x v reducesTo_S4194304x32_S_d0_1 h_S_) main_v2 main_c
  let main_v4 : FVec F S4194304x32 .f32 := Host.absf main_arg1
  let main_cst_0 : FVec F S_ .f32 := constant S_ .f32 0x7F800000#32
  let main_v5 : FVec F S4194304x32 .f32 := broadcastInDim S4194304x32 ![] bcast_S_S4194304x32 main_cst_0
  let main_v6 : IVec S4194304x32 1 := cmpf .olt main_v4 main_v5
  let main_c_1 : IVec S_ 1 := constantI S_ 1 1#1
  let main_v7 : IVec S_ 1 := (fun x v => Host.reduce IntOp.andi x v reducesTo_S4194304x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4194304x32 : Shape := ⟨2, ![4194304, 32]⟩
abbrev S32 : Shape := ⟨1, ![32]⟩
abbrev S1x32 : Shape := ⟨2, ![1, 32]⟩
abbrev S1x1 : Shape := ⟨2, ![1, 1]⟩
abbrev S16384x32 : Shape := ⟨2, ![16384, 32]⟩
abbrev S16384 : Shape := ⟨1, ![16384]⟩
abbrev S16384x1 : Shape := ⟨2, ![16384, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S32, .f32⟩
  | .hbm, ⟨3, _⟩ => ⟨S1x32, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S16384x32, .f32⟩
  | .local _ .vmem, ⟨4, _⟩ => ⟨S1x32, .f32⟩
  | .local _ .vmem, ⟨5, _⟩ => ⟨S1x1, .f32⟩
  | _, _ => ⟨S4194304x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32_S1x32 : S32.ShapeCasts S1x32
  inb_S1x1_S1x1_0_0 : ∀ a, (![0, 0] : Fin 2 → Nat) a + S1x1.size a ≤ S1x1.size a
  h_S1x1 : 0 < S1x1.numel
  inb_S16384x32_S16384x32_0_0 : ∀ a, (![0, 0] : Fin 2 → Nat) a + S16384x32.size a ≤ S16384x32.size a
  h_S16384x32 : 0 < S16384x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  reduces_S16384x32_S16384 : S16384x32.Reduces [1] S16384
  shapeCasts_S16384_S16384x1 : S16384.ShapeCasts S16384x1
  reduces_S16384x1_S1 : S16384x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S4194304x32.size a
  hwx0_0 : ∀ i : grid0.Coords, EltTy.bits .f32 = 32 ∨ (Rect.block (s := S4194304x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S4194304x32.size a
  hwx0_1 : ∀ i : grid0.Coords, EltTy.bits .f32 = 32 ∨ (Rect.block (s := S4194304x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x32 : Shape := ⟨2, ![4194304, 32]⟩
abbrev S32 : Shape := ⟨1, ![32]⟩
abbrev S_ : Shape := ⟨0, ![]⟩
abbrev S1x32 : Shape := ⟨2, ![1, 32]⟩

abbrev nBuf : Space → Nat
  | .hbm => 16
  | .vmem => 0
  | .smem => 0
  | _ => 0

abbrev bufTy : (tb : Table) → Fin (tcTables nBuf tb) → BufTy
  | .hbm, ⟨0, _⟩ => ⟨S4194304x32, .f32⟩
  | .hbm, ⟨1, _⟩ => ⟨S4194304x32, .f32⟩
  | .hbm, ⟨2, _⟩ => ⟨S32, .f32⟩
  | .hbm, ⟨3, _⟩ => ⟨S4194304x32, .f32⟩
  | .hbm, ⟨4, _⟩ => ⟨S_, .f32⟩
  | .hbm, ⟨5, _⟩ => ⟨S4194304x32, .f32⟩
  | .hbm, ⟨6, _⟩ => ⟨S4194304x32, .i1⟩
  | .hbm, ⟨7, _⟩ => ⟨S1x32, .f32⟩
  | .hbm, ⟨8, _⟩ => ⟨S1x32, .f32⟩
  | .hbm, ⟨9, _⟩ => ⟨S4194304x32, .f32⟩
  | .hbm, ⟨10, _⟩ => ⟨S4194304x32, .f32⟩
  | .hbm, ⟨11, _⟩ => ⟨S4194304x32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S4194304x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4194304x32 : S_.BroadcastsInDim S4194304x32 (![] : Fin 0 → Fin S4194304x32.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  reducesTo_S4194304x32_S_d0_1 : S4194304x32.ReducesTo [0, 1] S_
  h_S_ : 0 < S_.numel

variable [Facts₀]

class Facts : Prop extends Facts₀ where

variable [Facts]
-- ==== Proof.LossSum.lean ====
/-
  The asymmetric L1 loss as mathematics over the extended reals.

  One entry's loss is `d` when `d = x - y` is not below zero and `(-p) · d` when it is, `p` the penalty of the
  entry's column. The mean loss is the sum of the entries' losses over the whole [4194304, 32] array, divided by
  the number of rows. The array's rows split into 256 consecutive blocks of 16384 rows; the sum over the array is
  the sum over the blocks of each block's sum over its rows and columns — a regrouping of a finite sum in a
  commutative monoid, which the extended reals are under addition, so nothing here needs the entries finite.
-/
import Idealize.ShloMosaic.PureOps.Ideal
import Idealize.ShloMosaic.PureOps.Ideal.Laws
import Idealize.ShloMosaic.Lib.ValueIdx

noncomputable section

namespace Cert.AsymLoss

open Idealize.ShloMosaic Idealize.ShloMosaic.ValueIdx

/-- One entry's loss: with `d = x - y`, `(-p) · d` where `d < 0`, else `d`. -/
def entry (x y p : EReal) : EReal :=
  Scalar.select (FloatOps.cmpf (F := Ideal) (φ := .f32) .olt (x - y) (Ideal.ofBits .f32 0x00000000#32)) (-p * (x - y)) (x - y)

/-- Row `r` of row block `t`, as a row of the whole array: `16384 t + r`. -/
def row (t : Fin 256) (r : Fin 16384) : Fin 4194304 :=
  ⟨t.val * 16384 + r.val, by have := t.isLt; have := r.isLt; omega⟩

/-- The sum of the losses over one [16384, 32] block, the penalties a [1, 32] row. -/
def blockSum (X Y : (⟨2, ![16384, 32]⟩ : Shape).Idx → EReal) (P : (⟨2, ![1, 32]⟩ : Shape).Idx → EReal) : EReal :=
  ∑ r : Fin 16384, ∑ l : Fin 32, entry (X (ix2 r l)) (Y (ix2 r l)) (P (ix2 (0 : Fin 1) l))

/-- The sum of the losses over the whole array, the penalties a vector of 32. -/
def total (X Y : (⟨2, ![4194304, 32]⟩ : Shape).Idx → EReal) (P : (⟨1, ![32]⟩ : Shape).Idx → EReal) : EReal :=
  ∑ i : (⟨2, ![4194304, 32]⟩ : Shape).Idx, entry (X i) (Y i) (P (ix1 (i 1)))

/-- Block `t` of the whole array: its rows `16384 t … 16384 t + 16383`. -/
def blockOf (X : (⟨2, ![4194304, 32]⟩ : Shape).Idx → EReal) (t : Fin 256) : (⟨2, ![16384, 32]⟩ : Shape).Idx → EReal :=
  fun j => X (ix2 (row t (j 0)) (j 1))

/-- The penalties as the one row of a [1, 32] array. -/
def rowOf (P : (⟨1, ![32]⟩ : Shape).Idx → EReal) : (⟨2, ![1, 32]⟩ : Shape).Idx → EReal :=
  fun j => P (ix1 (j 1))

/-- A sum over the 4194304 rows is the sum over the 256 blocks of the sum over each block's 16384 rows: every row
    is `16384 t + r` for exactly one `(t, r)`. -/
theorem sum_rows {M : Type*} [AddCommMonoid M] (g : Fin 4194304 → M) :
    ∑ a, g a = ∑ t : Fin 256, ∑ r : Fin 16384, g (row t r) := by
  have e : ∑ x : Fin 256 × Fin 16384, g (row x.1 x.2) = ∑ a, g a :=
    Fintype.sum_equiv (finProdFinEquiv : Fin 256 × Fin 16384 ≃ Fin 4194304) _ _ (fun x => by
      congr 1
      apply Fin.ext
      show x.1.val * 16384 + x.2.val = x.2.val + 16384 * x.1.val
      omega)
  rw [← e]
  exact Fintype.sum_prod_type' (fun t r => g (row t r))

/-- The whole array's sum is the sum of its 256 blocks' sums. -/
theorem total_eq_sum_blocks (X Y : (⟨2, ![4194304, 32]⟩ : Shape).Idx → EReal) (P : (⟨1, ![32]⟩ : Shape).Idx → EReal) :
    total X Y P = ∑ t : Fin 256, blockSum (blockOf X t) (blockOf Y t) (rowOf P) := by
  unfold total blockSum blockOf rowOf
  rw [sum_idx2, sum_rows]

end Cert.AsymLoss

end
-- ==== Proof.LibKeepdimsSum.lean ====
/-
  Sums with kept unit axes, read at an index over the extended reals.

  A float add-reduction of an [a, b] array along its second axis is, at row `r`, the sum over the `b` columns of the
  entries of that row; of an [a, 1] column along its first axis it is, at its one index, the sum of the column's `a`
  entries. A vector of length `a` viewed as an [a, 1] column reads, at `(i, 0)`, the vector at `i`; a [1, 1] array
  viewed as a scalar reads its one entry. Each is the
  library's one-axis reading with the indices written out by coordinates.
-/
import Idealize.ShloMosaic.Lib.ValueLayout
import Idealize.ShloMosaic.PureOps.Ideal.Laws

namespace Cert.Lib.KeepdimsSum

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to a scalar reads, at the scalar's one index, the operand's one entry. -/
theorem shapeCast_11_scalar_apply (x : (⟨2, ![1, 1]⟩ : Shape).Idx → α) (h : (⟨2, ![1, 1]⟩ : Shape).ShapeCasts ⟨0, ![]⟩)
    (i : (⟨0, ![]⟩ : Shape).Idx) : shapeCast ⟨0, ![]⟩ x h i = x (ix2 (0 : Fin 1) (0 : Fin 1)) :=
  shapeCast_apply x h _ _ (by
    rw [Shape.rowMajor_val_two]
    show 0 * 1 + 0 = (Shape.rowMajorPi _ i).val
    rw [Shape.rowMajorPi_zero])

/-- The sum along the second axis of an `[a, b]` array, at row `r`: the sum over the columns of row `r`. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ l : Fin b, v (ix2 r l) := by
  refine (Ideal.multiReduction_add_single v 0x00000000#32 h hφ hacc (ix1 r)).trans ?_
  show ∑ l : Fin b, v (h.lift (ix1 r) l) = _
  refine Finset.sum_congr rfl fun l _ => congrArg v ?_
  funext d
  match d with
  | ⟨0, _⟩ => rfl
  | ⟨1, _⟩ => rfl

/-- The sum along the first axis of an `[a, 1]` column, at its one index: the sum of the column's entries. -/
theorem colSum_apply {a : ℕ} (v : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ v 0x00000000#32 h hφ hacc (ix1 u) = ∑ r : Fin a, v (ix2 r (0 : Fin 1)) := by
  refine (Ideal.multiReduction_add_single v 0x00000000#32 h hφ hacc (ix1 u)).trans ?_
  show ∑ r : Fin a, v (h.lift (ix1 u) r) = _
  refine Finset.sum_congr rfl fun r _ => congrArg v ?_
  funext d
  match d with
  | ⟨0, _⟩ => rfl
  | ⟨1, _⟩ => exact Fin.ext (by have := u.isLt; show u.val = 0; omega)

end Cert.Lib.KeepdimsSum
-- ==== Proof.BlockPayload.lean ====
/-
  What the kernel body adds at one grid point, at the ideal values.

  The body's one store writes, into the [1, 1] accumulator, the accumulator's entry plus the sum over the block's
  16384 rows of the sum over each row's 32 columns of the entries' losses: the subtraction, the comparison with zero,
  the product with the negated penalty row (zero minus the penalty, which over the extended reals is its negation)
  and the select are entry by entry; the two add-reductions, each from a zero accumulator, are plain sums.
-/
import proofs.«112798_j89309549953237_1_alg».proof.Proof.Gen.KernelIdeal.Skeleton
import proofs.«112798_j89309549953237_1_alg».proof.Proof.LossSum
import proofs.«112798_j89309549953237_1_alg».proof.Proof.LibKeepdimsSum
import Idealize.ShloMosaic.Lib.Pipeline.Value
import Idealize.ShloMosaic.Lib.ValueLayout

noncomputable section

namespace Cert.KernelIdeal.BlockLoss

open Cert.KernelIdeal Cert.KernelIdeal.Gen Idealize.ShloMosaic Idealize.ShloMosaic.ValueIdx Cert.Lib.KeepdimsSum

/-- The reset stores the zero block: its one entry is the extended real zero. -/
theorem pay1_apply : k0_pay1 (F := Ideal) (ix2 (0 : Fin 1) (0 : Fin 1)) = 0 := by
  show Ideal.ofBits .f32 0x00000000#32 = 0
  exact Ideal.ofBits_zero_f32

/-- The accumulating store's one entry: the accumulator's entry plus the block's sum of losses. -/
theorem pay2_apply (x0 x1 : Vec Ideal S16384x32 .f32) (x2 : Vec Ideal S1x32 .f32) (acc : Vec Ideal S1x1 .f32) :
    k0_pay2 (F := Ideal) x0 x1 x2 acc (ix2 (0 : Fin 1) (0 : Fin 1))
      = acc (ix2 (0 : Fin 1) (0 : Fin 1)) + Cert.AsymLoss.blockSum x0 x1 x2 := by
  unfold k0_pay2
  dsimp only
  rw [shapeCast_self acc, shapeCast_self x2]
  refine congrArg (acc (ix2 (0 : Fin 1) (0 : Fin 1)) + ·) ?_
  refine (shapeCast_a_1a_apply _ shapeCasts_S1_S1x1 (0 : Fin 1) (0 : Fin 1)).trans ?_
  refine (colSum_apply _ _ _ _ (0 : Fin 1)).trans ?_
  unfold Cert.AsymLoss.blockSum
  refine Finset.sum_congr rfl fun r _ => ?_
  refine (shapeCast_a_a1_apply _ shapeCasts_S16384_S16384x1 r (0 : Fin 1)).trans ?_
  refine (laneSum_apply _ _ _ _ r).trans ?_
  refine Finset.sum_congr rfl fun l _ => ?_
  have hb := broadcastTo_1b_ab_apply (subf (broadcast S1x32 (FloatOps.ofBits (F := Ideal) .f32 0x00000000#32)) x2)
    broadcasts_S1x32_S16384x32 r l
  have hneg : (subf (broadcast S1x32 (FloatOps.ofBits (F := Ideal) .f32 0x00000000#32)) x2) (ix2 (0 : Fin 1) l)
      = -x2 (ix2 (0 : Fin 1) l) := by
    show Ideal.ofBits .f32 0x00000000#32 - x2 (ix2 (0 : Fin 1) l) = _
    rw [Ideal.ofBits_zero_f32, zero_sub]
  show Scalar.select _ (broadcastTo S16384x32 _ broadcasts_S1x32_S16384x32 (ix2 r l) * _) _ = _
  rw [hb, hneg]
  rfl

end Cert.KernelIdeal.BlockLoss

end
-- ==== Proof.KernelValue.lean ====
/-
  The kernel's result at the ideal values.

  Each case of the body leaves in the [1, 1] accumulator the body's one accumulating store: at the first grid point over
  the zero the reset has just stored, at every later point over what the point before left. Read at its one index
  that is the accumulator plus the sum of the losses over the [16384, 32] blocks the windows hold at the point, so after
  point `n` the accumulator is the sum of the first `n + 1` points' sums (induction on the point). The accumulator is
  written back once, after the last point, and its block is the whole [1, 1] result array; the host lines after the
  region view it as a scalar and divide by the constant. The blocks the windows hold at point `t` are rows
  `16384 t … 16384 t + 16383` of the two argument arrays and the penalty vector viewed as one row, so the sum over the
  256 points is the sum over the whole array.
-/
import proofs.«112798_j89309549953237_1_alg».proof.Proof.Gen.KernelIdeal.Frame
import proofs.«112798_j89309549953237_1_alg».proof.Proof.BlockPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.LossValue

open Cert.KernelIdeal Cert.KernelIdeal.Gen Idealize.ShloMosaic.ValueIdx

variable {F : FTy → Type} [FloatOps F]
variable (m : (ℓ : Loc nD τ sig) → Buf (Elt F) ℓ) (ρ : Dev nD → PrngReg)

/-- The zero offsets every load and store of the body uses. -/
theorem hz : (![0, 0] : Fin 2 → Nat) = fun _ => 0 := funext fun a => by fin_cases a <;> rfl

/-- At a point after the first the accumulator, holding `xo`, is left at the accumulating store's value over `xo`. -/
theorem out_B (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (hc : ¬cond0_0 i)
    (x0 x1 : Vec F S16384x32 .f32) (x2 : Vec F S1x32 .f32) (xo : Vec F S1x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz]
  simp only [View.readAt_eq_ld, h1.read_unread, h2.read_unread, h3.read_unread, h4.read_unread,
    View.ld_unit_zero (S := S16384x32) hz, View.ld_unit_zero (S := S1x32) hz, View.ld_unit_zero (S := S1x1) hz]

/-- At the first point the reset's zero block is stored and read back, and the accumulator is left at the accumulating
    store's value over that zero block. -/
theorem out_A (c : Dev nD) (i : grid0.Coords) (a1 : Memref sig .tc .vmem S16384x32 .f32) (h1 : a1.IsWhole)
    (a2 : Memref sig .tc .vmem S16384x32 .f32) (h2 : a2.IsWhole) (a3 : Memref sig .tc .vmem S1x32 .f32) (h3 : a3.IsWhole)
    (a4 : Memref sig .tc .vmem S1x1 .f32) (h4 : a4.IsWhole) (hc : cond0_0 i)
    (x0 x1 : Vec F S16384x32 .f32) (x2 : Vec F S1x32 .f32) :
    out0_A_3 c i a1 h1 a2 h2 a3 h3 a4 h4 hc x0 x1 x2 = k0_pay2 x0 x1 x2 k0_pay1 := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S16384x32) hz, View.ld_unit_zero (S := S1x32) hz, View.ld_unit_zero (S := S1x1) hz]

/-! ## The accumulator after each point, at the ideal values -/

section AtIdeal

variable (m : (ℓ : Loc nD τ sig) → Buf (Elt Ideal) ℓ) (ρ : Dev nD → PrngReg)

/-- The three input windows' blocks at a point, as vectors of their literal shapes. -/
abbrev xblk (c : Dev nD) (t : Fin cfg0.N) : Vec Ideal S16384x32 .f32 := iblk m c 0 t
abbrev yblk (c : Dev nD) (t : Fin cfg0.N) : Vec Ideal S16384x32 .f32 := iblk m c 1 t
abbrev pblk (c : Dev nD) (t : Fin cfg0.N) : Vec Ideal S1x32 .f32 := iblk m c 2 t

/-- The sum of the losses over the blocks the windows hold at point `t`. -/
def ptSum (c : Dev nD) (t : Fin cfg0.N) : EReal :=
  Cert.AsymLoss.blockSum (xblk m c t) (yblk m c t) (pblk m c t)

/-- The same by the point's number, zero past the grid's 256 points. -/
def blk (c : Dev nD) (k : ℕ) : EReal :=
  if h : k < 256 then ptSum m c ⟨k, lt_of_lt_of_eq h N_0.symm⟩ else 0

/-- At the first point the accumulator is reset to zero and then holds the point's sum. -/
theorem outsAt_A (c : Dev nD) (t : Fin cfg0.N) (h0 : t.val % 256 = 0) :
    outsAt0 m c t.val t.isLt (ix2 (0 : Fin 1) (0 : Fin 1)) = ptSum m c t := by
  rw [outsAt0_A m c t h0]
  refine (congrFun (out_A (F := Ideal) c (grid0.coords t) (ms0_0 t) (hs0_0 t) (ms0_1 t) (hs0_1 t) (ms0_2 t) (hs0_2 t)
    (ms0_3 t) (hs0_3 t) ((hcond0_0 t).mpr h0) (xblk m c t) (yblk m c t) (pblk m c t)) (ix2 (0 : Fin 1) (0 : Fin 1))).trans ?_
  refine (BlockLoss.pay2_apply (xblk m c t) (yblk m c t) (pblk m c t) (k0_pay1 (F := Ideal))).trans ?_
  rw [BlockLoss.pay1_apply, zero_add]
  rfl

/-- At every later point it holds what the point before left plus the point's sum. -/
theorem outsAt_B (c : Dev nD) (t : Fin cfg0.N) (h0 : ¬t.val % 256 = 0) :
    outsAt0 m c t.val t.isLt (ix2 (0 : Fin 1) (0 : Fin 1))
      = outsAt0 m c (t.val - 1) (Nat.lt_of_le_of_lt (Nat.sub_le _ _) t.isLt) (ix2 (0 : Fin 1) (0 : Fin 1)) + ptSum m c t := by
  rw [outsAt0_B m c t h0]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (xblk m c t) (yblk m c t) (pblk m c t)
    (outsAt0 m c (t.val - 1) (Nat.lt_of_le_of_lt (Nat.sub_le _ _) t.isLt))) (ix2 (0 : Fin 1) (0 : Fin 1))).trans ?_
  exact BlockLoss.pay2_apply (xblk m c t) (yblk m c t) (pblk m c t) _

/-- So after point `n` the accumulator holds the sum of the points' sums up to `n`: by induction on the point. -/
theorem outsAt_eq (c : Dev nD) : ∀ (n : ℕ) (h : n < cfg0.N),
    outsAt0 m c n h (ix2 (0 : Fin 1) (0 : Fin 1)) = ∑ k ∈ Finset.range (n + 1), blk m c k
  | 0, h => by
    rw [Finset.sum_range_one]
    refine (outsAt_A m c ⟨0, h⟩ rfl).trans ?_
    unfold blk
    rw [dif_pos (by decide)]
  | n + 1, h => by
    have hN : n + 1 < 256 := lt_of_lt_of_eq h N_0
    have hB : ¬(⟨n + 1, h⟩ : Fin cfg0.N).val % 256 = 0 := by dsimp only; omega
    refine (outsAt_B m c ⟨n + 1, h⟩ hB).trans ?_
    rw [Finset.sum_range_succ _ (n + 1)]
    show outsAt0 m c n _ (ix2 (0 : Fin 1) (0 : Fin 1)) + _ = _
    rw [outsAt_eq c n]
    unfold blk
    rw [dif_pos hN]

/-! ## From the accumulator to the result array, and through the host's division -/

/-- The grid's last point, the only one that writes the accumulator back. -/
abbrev tlast : Fin cfg0.N := ⟨255, by rw [show cfg0.N = 256 from N_0]; decide⟩

/-- What the accumulator holds after the last point, as contents of the [1, 1] result array (its one block IS the array). -/
def result (c : Dev nD) : Buf (Elt Ideal) ((c : Thread nD τ).loc main_v1) := outsAt0 m c tlast.val tlast.isLt

/-- Its defining equation. -/
theorem result_def (c : Dev nD) : result m c = outsAt0 m c tlast.val tlast.isLt := rfl

-- from here on the result is used only through `result_def`
attribute [irreducible] result

/-- The one write-back, at the last point, writes it: block (0, 0) of the [1, 1] array read through zero offsets is the array. -/
theorem flushed_eq (c : Dev nD) (t : Fin cfg0.N) (hf : (cfg0.win 3).flush t = true) :
    (dats m 0 c).flushed 3 t = ((cfg0.win 3).blk t).view.read (Elt Ideal) (result m c) := by
  have hN : t.val < 256 := lt_of_lt_of_eq t.isLt N_0
  have h255 : t.val = 255 := by have := (flush0_3 t).mp hf; omega
  obtain rfl : t = tlast := Fin.ext h255
  show (cfg0.win 3).cut (grid0.coords tlast) ((dats m 0 c).after 3 tlast) = _
  rw [after0_3, ← result_def]
  have hz' : (fun a => win0_3.index tlast a * main_v1.ty.shape.size a) = fun _ => 0 := funext fun a => by fin_cases a <;> decide
  exact (Memref.read_access_unit_zero (Elt Ideal) main_v1 hz' (fun a => by rw [congrFun hz' a]; simp) (result m c)).symm

/-- So the result array ends holding the accumulator after the last point: that point's block covers the array. -/
theorem final_o (c : Dev nD) : (dats m 0 c).arrAt 3 cfg0.N = result m c :=
  (dats m 0 c).arrAt_eq_of_cover 3 (result m c) (flushed_eq m c) fun i =>
    ⟨tlast, (flush0_3 tlast).mpr rfl, by
      show i ∈ ((View.whole main_v1).slice (win0_3.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_3.index tlast 0 * win0_3.size 0 ≤ (i 0 : Nat) ∧ (i 0 : Nat) < win0_3.index tlast 0 * win0_3.size 0 + win0_3.xsize (grid0.coords tlast) 0
                  rw [show win0_3.index tlast 0 * win0_3.size 0 = 0 from by decide +kernel, show win0_3.xsize (grid0.coords tlast) 0 = 1 from by decide +kernel]; omega
      | ⟨1, _⟩ => show win0_3.index tlast 1 * win0_3.size 1 ≤ (i 1 : Nat) ∧ (i 1 : Nat) < win0_3.index tlast 1 * win0_3.size 1 + win0_3.xsize (grid0.coords tlast) 1
                  rw [show win0_3.index tlast 1 * win0_3.size 1 = 0 from by decide +kernel, show win0_3.xsize (grid0.coords tlast) 1 = 1 from by decide +kernel]; omega⟩

/-- The host lines after the region: the [1, 1] array viewed as a scalar, divided by the constant. -/
theorem tail_eq (c : Dev nD) :
    Pipeline.afterTail₀ cfgs (dats m) 0 (V0 m) [hostOps1] c main_v3
      = Host.divf (F := Ideal) (shapeCast S_ (result m c) shapeCasts_S1x1_S_) (constant (F := Ideal) S_ .f32 0x4A800000#32) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v1)
      = result m c :=
    (Pipeline.withArrays_arr spec0 launch0.win.arr_inj c (V0 m c) _ 3).trans (final_o m c)
  rw [hw]
  rfl

/-- The run, read: the scalar result at the accumulator after the last point divided by the constant, the arguments
    unchanged. -/
theorem run : θ_run defs (onTc (τ := τ) (main (F := Ideal))) ⟨m, fun _ => 0, ρ⟩ fun r => ∀ c : Dev nD,
      r.2.mem ((c : Thread nD τ).loc main_v3)
        = Host.divf (F := Ideal) (shapeCast S_ (result m c) shapeCasts_S1x1_S_) (constant (F := Ideal) S_ .f32 0x4A800000#32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-! ## The windows' blocks are the argument arrays' row blocks -/

/-- Windows 0 and 1 are at block `(t, 0)` at point `t`, window 2 at block `(0, 0)`: decided over the grid. -/
theorem idx_x : ∀ t : Fin cfg0.N, win0_0.index t 0 = t.val ∧ win0_0.index t 1 = 0 :=
  (by decide +kernel : ∀ t : Fin grid0.N, win0_0.index t 0 = t.val ∧ win0_0.index t 1 = 0)
theorem idx_y : ∀ t : Fin cfg0.N, win0_1.index t 0 = t.val ∧ win0_1.index t 1 = 0 :=
  (by decide +kernel : ∀ t : Fin grid0.N, win0_1.index t 0 = t.val ∧ win0_1.index t 1 = 0)
theorem idx_p : ∀ t : Fin cfg0.N, win0_2.index t 0 = 0 ∧ win0_2.index t 1 = 0 :=
  (by decide +kernel : ∀ t : Fin grid0.N, win0_2.index t 0 = 0 ∧ win0_2.index t 1 = 0)

/-- The point's number as a block number. -/
abbrev blkNo (t : Fin cfg0.N) : Fin 256 := ⟨t.val, lt_of_lt_of_eq t.isLt N_0⟩

/-- Window 0's block at point `t` is rows `16384 t …` of the first argument. -/
theorem xblk_eq (c : Dev nD) (t : Fin cfg0.N) :
    xblk m c t = Cert.AsymLoss.blockOf (m ((c : Thread nD τ).loc main_arg0)) (blkNo t) := by
  funext j
  unfold xblk iblk Cert.AsymLoss.blockOf
  rw [View.read_apply]
  show V m c main_arg0 _ = m (c.tc.loc main_arg0) _
  rw [V_main_arg0]
  congr 1
  funext a
  apply Fin.ext
  match a with
  | ⟨0, _⟩ => show win0_0.index t 0 * 16384 + 1 * (j 0).val = t.val * 16384 + (j 0).val; rw [(idx_x t).1]; omega
  | ⟨1, _⟩ => show win0_0.index t 1 * 32 + 1 * (j 1).val = (j 1).val; rw [(idx_x t).2]; omega

/-- Window 1's block at point `t` is rows `16384 t …` of the second argument. -/
theorem yblk_eq (c : Dev nD) (t : Fin cfg0.N) :
    yblk m c t = Cert.AsymLoss.blockOf (m ((c : Thread nD τ).loc main_arg1)) (blkNo t) := by
  funext j
  unfold yblk iblk Cert.AsymLoss.blockOf
  rw [View.read_apply]
  show V m c main_arg1 _ = m (c.tc.loc main_arg1) _
  rw [V_main_arg1]
  congr 1
  funext a
  apply Fin.ext
  match a with
  | ⟨0, _⟩ => show win0_1.index t 0 * 16384 + 1 * (j 0).val = t.val * 16384 + (j 0).val; rw [(idx_y t).1]; omega
  | ⟨1, _⟩ => show win0_1.index t 1 * 32 + 1 * (j 1).val = (j 1).val; rw [(idx_y t).2]; omega

/-- The host line before the region views the penalty vector as a [1, 32] row. -/
theorem V_main_v0 (c : Dev nD) :
    (V m c main_v0 : S1x32.Idx → EReal) = shapeCast S1x32 (m ((c : Thread nD τ).loc main_arg2)) shapeCasts_S32_S1x32 := by
  show StableHlo.after hostOps0 (fun b => m (c, b)) (Proc.devRef .tc main_v0) = _
  after_results
  rfl

/-- Window 2's block at every point is that row. -/
theorem pblk_eq (c : Dev nD) (t : Fin cfg0.N) :
    pblk m c t = Cert.AsymLoss.rowOf (m ((c : Thread nD τ).loc main_arg2)) := by
  funext j
  obtain ⟨u, l, rfl⟩ : ∃ (u : Fin 1) (l : Fin 32), j = ix2 u l := ⟨j 0, j 1, eq_ix2 j⟩
  unfold pblk iblk Cert.AsymLoss.rowOf
  rw [View.read_apply]
  show V m c main_v0 _ = _
  rw [V_main_v0]
  refine Eq.trans (congrArg _ ?_) (shapeCast_a_1a_apply _ shapeCasts_S32_S1x32 u l)
  funext a
  apply Fin.ext
  match a with
  | ⟨0, _⟩ => show win0_2.index t 0 * 1 + 1 * u.val = u.val; rw [(idx_p t).1]; omega
  | ⟨1, _⟩ => show win0_2.index t 1 * 32 + 1 * l.val = l.val; rw [(idx_p t).2]; omega

/-- So the accumulator after the last point holds the whole array's sum of losses. -/
theorem result_apply (c : Dev nD) :
    result m c (ix2 (0 : Fin 1) (0 : Fin 1))
      = Cert.AsymLoss.total (m ((c : Thread nD τ).loc main_arg0)) (m ((c : Thread nD τ).loc main_arg1)) (m ((c : Thread nD τ).loc main_arg2)) := by
  rw [result_def, outsAt_eq, Cert.AsymLoss.total_eq_sum_blocks]
  show ∑ k ∈ Finset.range 256, blk m c k = _
  rw [Finset.sum_range]
  refine Finset.sum_congr rfl fun k _ => ?_
  unfold blk
  rw [dif_pos k.isLt]
  unfold ptSum
  rw [xblk_eq, yblk_eq, pblk_eq]

/-- And the kernel's scalar result is that sum divided by the constant. -/
theorem value_apply (c : Dev nD) (i : S_.Idx) :
    Host.divf (F := Ideal) (shapeCast S_ (result m c) shapeCasts_S1x1_S_) (constant (F := Ideal) S_ .f32 0x4A800000#32) i
      = Ideal.div (Cert.AsymLoss.total (m ((c : Thread nD τ).loc main_arg0)) (m ((c : Thread nD τ).loc main_arg1))
          (m ((c : Thread nD τ).loc main_arg2))) (Ideal.ofBits .f32 0x4A800000#32) := by
  show Ideal.div (shapeCast S_ (result m c) shapeCasts_S1x1_S_ i) (Ideal.ofBits .f32 0x4A800000#32) = _
  rw [Cert.Lib.KeepdimsSum.shapeCast_11_scalar_apply, result_apply]

end AtIdeal

end Cert.KernelIdeal.LossValue

end
-- ==== Proof.RefValue.lean ====
/-
  The reference's result at the ideal values: zero plus the sum over the whole array of the entries' losses,
  divided by the number of rows — its select, product, negation and comparison read entry by entry, its sum over
  both axes read as the sum over every index.
-/
import proofs.«112798_j89309549953237_1_alg».proof.Proof.Gen.ReferenceIdeal.Read
import proofs.«112798_j89309549953237_1_alg».proof.Proof.LossSum

noncomputable section

namespace Cert.ReferenceIdeal.LossValue

open Cert.ReferenceIdeal Cert.ReferenceIdeal.Gen Cert.ReferenceIdeal.Read Idealize.ShloMosaic Idealize.ShloMosaic.ValueIdx

/-- The column of the penalty vector an entry's product reads: the entry's own column. -/
theorem penalty_idx (j : S4194304x32.Idx) : idx_main_v3 (idx_main_v5 j) = ix1 (j 1) :=
  funext fun a => match a with | ⟨0, _⟩ => rfl

/-- One entry of the reference's selected array is that entry's loss. -/
theorem entry_eq (X Y : (⟨S4194304x32, .f32⟩ : BufTy).Contents (Elt Ideal)) (P : (⟨S32, .f32⟩ : BufTy).Contents (Elt Ideal))
    (j : S4194304x32.Idx) :
    val_main_v7 (F := Ideal) X Y P j = Cert.AsymLoss.entry (X j) (Y j) (P (ix1 (j 1))) := by
  rw [val_main_v7_apply, val_main_v2_apply, val_main_v6_apply, val_main_v5_apply, val_main_v4_apply, val_main_v3_apply,
    val_main_v1_apply, val_main_cst_apply, val_main_v0_apply, penalty_idx]
  rfl

/-- The reference's result: the total loss over the array divided by the constant. -/
theorem result_eq (X Y : (⟨S4194304x32, .f32⟩ : BufTy).Contents (Elt Ideal)) (P : (⟨S32, .f32⟩ : BufTy).Contents (Elt Ideal))
    (i : S_.Idx) :
    val_main_v9 (F := Ideal) X Y P i = Ideal.div (Cert.AsymLoss.total X Y P) (Ideal.ofBits .f32 0x4A800000#32) := by
  rw [val_main_v9_apply, val_main_v8_apply, val_main_cst_0_apply, val_main_cst_1_apply]
  show Ideal.div (Ideal.ofBits .f32 0x00000000#32 + _) _ = _
  rw [Ideal.ofBits_zero_f32, zero_add]
  unfold Cert.AsymLoss.total
  rw [Finset.sum_congr rfl fun j _ => entry_eq X Y P j]
  rfl

end Cert.ReferenceIdeal.LossValue

end
-- ==== Proof.lean ====
/-
  The kernel computes the mean asymmetric L1 loss of two [4194304, 32] arrays under a per-column penalty: an entry's
  loss is `d = computed - target` where `d` is not below zero and `(-penalty) · d` where it is; the result is the sum
  of the entries' losses divided by the number of rows.

  The kernel walks the rows in 256 blocks of 16384. At the first block it resets a [1, 1] accumulator to zero; at every
  block it adds to the accumulator the block's sum of losses (a sum along the columns, then along the rows, each from
  zero); after the last block the accumulator is written back, viewed as a scalar and divided by 4194304. The reference
  sums the losses over the whole array at once, from zero, and divides by the same constant.

  Over the extended reals both are the same number: zero minus the penalty is its negation, adding zero changes
  nothing, and the sum over the array is the sum over the blocks of the blocks' sums — a regrouping of a finite sum in
  a commutative monoid (Proof/LossSum.lean), so the inputs' finiteness is never used. The accumulator after point `n`
  is the sum of the first `n + 1` blocks' sums by induction on the point (Proof/KernelValue.lean, over the body's one
  store read at its index in Proof/BlockPayload.lean); the reference's term is read operation by operation
  (Proof/RefValue.lean). The three frames are the generated ones; the ideal pass rewrote nothing.
-/
import proofs.«112798_j89309549953237_1_alg».proof.Defs
import proofs.«112798_j89309549953237_1_alg».proof.Proof.Gen.Kernel
import proofs.«112798_j89309549953237_1_alg».proof.Proof.Gen.Kernel.Skeleton
import proofs.«112798_j89309549953237_1_alg».proof.Proof.Gen.Kernel.Launch
import proofs.«112798_j89309549953237_1_alg».proof.Proof.Gen.Kernel.Points
import proofs.«112798_j89309549953237_1_alg».proof.Proof.Gen.Kernel.Frame
import proofs.«112798_j89309549953237_1_alg».proof.Proof.Gen.KernelIdeal
import proofs.«112798_j89309549953237_1_alg».proof.Proof.Gen.KernelIdeal.Skeleton
import proofs.«112798_j89309549953237_1_alg».proof.Proof.Gen.KernelIdeal.Launch
import proofs.«112798_j89309549953237_1_alg».proof.Proof.Gen.KernelIdeal.Points
import proofs.«112798_j89309549953237_1_alg».proof.Proof.Gen.KernelIdeal.Frame
import proofs.«112798_j89309549953237_1_alg».proof.Proof.Gen.ReferenceIdeal
import proofs.«112798_j89309549953237_1_alg».proof.Proof.Gen.Pre_finite_inputs
import proofs.«112798_j89309549953237_1_alg».proof.Proof.Gen.ReferenceIdeal.Run
import proofs.«112798_j89309549953237_1_alg».proof.Proof.Gen.ReferenceIdeal.Read
import proofs.«112798_j89309549953237_1_alg».proof.Proof.KernelValue
import proofs.«112798_j89309549953237_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the total loss over the array divided by the number of rows. -/
theorem algebraic : Cert.algebraic_KernelIdeal_ReferenceIdeal := by
  intro m ρ m' ρ' _ hagree
  refine ⟨fun c => Host.divf (F := Ideal)
      (shapeCast Cert.KernelIdeal.S_ (Cert.KernelIdeal.LossValue.result m c) Cert.KernelIdeal.Gen.shapeCasts_S1x1_S_)
      (constant (F := Ideal) Cert.KernelIdeal.S_ .f32 0x4A800000#32), Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq]
  funext i
  rw [Cert.ReferenceIdeal.LossValue.result_eq, (hagree c).1, (hagree c).2.1, (hagree c).2.2]
  exact (Cert.KernelIdeal.LossValue.value_apply m c i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
